-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S64x2048 : Shape := ⟨2, ![64, 2048]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x2048 : S_.BroadcastsInDim S64x2048 (![] : Fin 0 → Fin S64x2048.rank)
  reducesTo_S64x2048_S_d0_1 : S64x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S2048x1024 .f32) (main_arg12 : FVec F S1024 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S64x2048 .f32) (main_arg8 : FVec F S2048 .f32) (main_arg9 : FVec F S2048x2048 .f32) (main_arg10 : FVec F S2048 .f32) (main_arg11 : FVec F S2048x1024 .f32) (main_arg12 : FVec F S1024 .f32) (main_v33 : IVec S_ 1) : IVec S_ 1 :=
  let main_v34 : FVec F S64x2048 .f32 := Host.absf main_arg7
  let main_cst_12 : FVec F S_ .f32 := constant S_ .f32 0x7F800000#32
  let main_v35 : FVec F S64x2048 .f32 := broadcastInDim S64x2048 ![] bcast_S_S64x2048 main_cst_12
  let main_v36 : IVec S64x2048 1 := cmpf .olt main_v34 main_v35
  let main_c_13 : IVec S_ 1 := constantI S_ 1 1#1
  let main_v37 : IVec S_ 1 := (fun x v => Host.reduce IntOp.andi x v reducesTo_S64x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048x64 .f32) (main_arg6 : FVec F S64 .f32) (main_arg7 : FVec F S64x2048 .f32) (main_arg8 : FVec F S2048 .f32) (main_arg9 : FVec F S2048x2048 .f32) (main_arg10 : FVec F S2048 .f32) (main_arg11 : FVec F S2048x1024 .f32) (main_arg12 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x64 .f32 := Host.absf main_arg5
  let main_cst_8 : FVec F S_ .f32 := constant S_ .f32 0x7F800000#32
  let main_v25 : FVec F S2048x64 .f32 := broadcastInDim S2048x64 ![] bcast_S_S2048x64 main_cst_8
  let main_v26 : IVec S2048x64 1 := cmpf .olt main_v24 main_v25
  let main_c_9 : IVec S_ 1 := constantI S_ 1 1#1
  let main_v27 : IVec S_ 1 := (fun x v => Host.reduce IntOp.andi x v reducesTo_S2048x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S1024x2048 .f32) (main_arg2 : FVec F S2048 .f32) (main_arg3 : FVec F S2048x2048 .f32) (main_arg4 : FVec F S2048 .f32) (main_arg5 : FVec F S2048x64 .f32) (main_arg6 : FVec F S64 .f32) (main_arg7 : FVec F S64x2048 .f32) (main_arg8 : FVec F S2048 .f32) (main_arg9 : FVec F S2048x2048 .f32) (main_arg10 : FVec F S2048 .f32) (main_arg11 : FVec F S2048x1024 .f32) (main_arg12 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S1024x2048 : Shape := ⟨2, ![1024, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S64x2048 : Shape := ⟨2, ![64, 2048]⟩
abbrev S2048x1024 : Shape := ⟨2, ![2048, 1024]⟩
abbrev S1024 : Shape := ⟨1, ![1024]⟩
abbrev S_ : Shape := ⟨0, ![]⟩
abbrev S2048x128 : Shape := ⟨2, ![2048, 128]⟩
abbrev S128 : Shape := ⟨1, ![128]⟩
abbrev S128x2048 : Shape := ⟨2, ![128, 2048]⟩
abbrev S8192x128 : Shape := ⟨2, ![8192, 128]⟩
abbrev S256x1024 : Shape := ⟨2, ![256, 1024]⟩
abbrev S256x128 : Shape := ⟨2, ![256, 128]⟩
abbrev S256x2048 : Shape := ⟨2, ![256, 2048]⟩
abbrev S1x2048 : Shape := ⟨2, ![1, 2048]⟩
abbrev S1x128 : Shape := ⟨2, ![1, 128]⟩
abbrev S1x1024 : Shape := ⟨2, ![1, 1024]⟩
abbrev S8192x64 : Shape := ⟨2, ![8192, 64]⟩

abbrev nBuf : Space → Nat
  | .hbm => 31
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S64x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S1024x2048, .bf16⟩
  | .hbm, ⟨14, _⟩ => ⟨S2048x2048, .bf16⟩
  | .hbm, ⟨15, _⟩ => ⟨S2048x2048, .bf16⟩
  | .hbm, ⟨16, _⟩ => ⟨S2048x1024, .bf16⟩
  | .hbm, ⟨17, _⟩ => ⟨S_, .i32⟩
  | .hbm, ⟨18, _⟩ => ⟨S_, .f32⟩
  | .hbm, ⟨19, _⟩ => ⟨S2048x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S_, .i32⟩
  | .hbm, ⟨24, _⟩ => ⟨S_, .f32⟩
  | .hbm, ⟨25, _⟩ => ⟨S128x2048, .f32⟩
  | .hbm, ⟨26, _⟩ => ⟨S2048x128, .bf16⟩
  | .hbm, ⟨27, _⟩ => ⟨S128x2048, .bf16⟩
  | .hbm, ⟨28, _⟩ => ⟨S8192x128, .f32⟩
  | .hbm, ⟨29, _⟩ => ⟨S8192x1024, .f32⟩
  | .hbm, ⟨30, _⟩ => ⟨S8192x64, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S2048, .f32⟩
  | .local _ .vmem, ⟨4, _⟩ => ⟨S2048x2048, .bf16⟩
  | .local _ .vmem, ⟨5, _⟩ => ⟨S2048, .f32⟩
  | .local _ .vmem, ⟨6, _⟩ => ⟨S2048x128, .bf16⟩
  | .local _ .vmem, ⟨7, _⟩ => ⟨S128, .f32⟩
  | .local _ .vmem, ⟨8, _⟩ => ⟨S128x2048, .bf16⟩
  | .local _ .vmem, ⟨9, _⟩ => ⟨S2048, .f32⟩
  | .local _ .vmem, ⟨10, _⟩ => ⟨S2048x2048, .bf16⟩
  | .local _ .vmem, ⟨11, _⟩ => ⟨S2048, .f32⟩
  | .local _ .vmem, ⟨12, _⟩ => ⟨S2048x1024, .bf16⟩
  | .local _ .vmem, ⟨13, _⟩ => ⟨S1024, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_c_0 : Ref sig .tc := ⟨.hbm, 20, rfl⟩
abbrev main_call1_v0 : Ref sig .tc := ⟨.hbm, 21, rfl⟩
abbrev main_v5 : Ref sig .tc := ⟨.hbm, 22, rfl⟩
abbrev main_c_1 : Ref sig .tc := ⟨.hbm, 23, rfl⟩
abbrev main_call2_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  pads_S2048x64_S2048x128_000_0640 : S2048x64.Pads (![0, 0] : Fin 2 → Nat) ![0, 64] ![0, 0] S2048x128
  h_S_ : 0 < S_.numel
  pads_S64_S128_0640 : S64.Pads (![0] : Fin 1 → Nat) ![64] ![0] S128
  pads_S64x2048_S128x2048_0640_000 : S64x2048.Pads (![0, 0] : Fin 2 → Nat) ![64, 0] ![0, 0] S128x2048
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  slices_S8192x128_S8192x64_0_0 : S8192x128.Slices ![0, 0] S8192x64
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  dot_S256x2048_S2048x128_S256x128_1_0_0_1_n_n_wf : DotDims.WF S256x2048 S2048x128 S256x128 [1] [0] [0] [1] [] []
  dot_S256x128_S128x2048_S256x2048_1_0_0_1_n_n_wf : DotDims.WF S256x128 S128x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x2048.size a ≤ S128x2048.size a
  hwx0_7 : ∀ i : grid0.Coords, EltTy.bits .bf16 = 32 ∨ (Rect.block (s := S128x2048) S128x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048.size a ≤ S2048.size a
  hwx0_10 : ∀ i : grid0.Coords, EltTy.bits .f32 = 32 ∨ (Rect.block (s := S2048) S2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x1024.size a ≤ S2048x1024.size a
  hwx0_11 : ∀ i : grid0.Coords, EltTy.bits .bf16 = 32 ∨ (Rect.block (s := S2048x1024) S2048x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024.size a ≤ S1024.size a
  hwx0_12 : ∀ i : grid0.Coords, EltTy.bits .f32 = 32 ∨ (Rect.block (s := S1024) S1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S8192x128.size a
  hwx0_13 : ∀ i : grid0.Coords, EltTy.bits .f32 = 32 ∨ (Rect.block (s := S8192x128) S256x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S8192x1024.size a
  hwx0_14 : ∀ i : grid0.Coords, EltTy.bits .f32 = 32 ∨ (Rect.block (s := S8192x1024) S256x1024.size (cc0_transform_14 i) (hinb0_14 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S2048x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9_0) S256x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9_1) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S64x2048 : Shape := ⟨2, ![64, 2048]⟩
abbrev S2048x1024 : Shape := ⟨2, ![2048, 1024]⟩
abbrev S1024 : Shape := ⟨1, ![1024]⟩
abbrev S8192x2048 : Shape := ⟨2, ![8192, 2048]⟩
abbrev S1x2048 : Shape := ⟨2, ![1, 2048]⟩
abbrev S_ : Shape := ⟨0, ![]⟩
abbrev S8192x64 : Shape := ⟨2, ![8192, 64]⟩
abbrev S1x64 : Shape := ⟨2, ![1, 64]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x64, .f32⟩
  | .hbm, ⟨6, _⟩ => ⟨S64, .f32⟩
  | .hbm, ⟨7, _⟩ => ⟨S64x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x1024, .f32⟩
  | .hbm, ⟨12, _⟩ => ⟨S1024, .f32⟩
  | .hbm, ⟨13, _⟩ => ⟨S8192x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x64, .f32⟩
  | .hbm, ⟨28, _⟩ => ⟨S1x64, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192x64, .f32⟩
  | .hbm, ⟨35, _⟩ => ⟨S8192x64, .f32⟩
  | .hbm, ⟨36, _⟩ => ⟨S_, .f32⟩
  | .hbm, ⟨37, _⟩ => ⟨S8192x64, .f32⟩
  | .hbm, ⟨38, _⟩ => ⟨S8192x64, .f32⟩
  | .hbm, ⟨39, _⟩ => ⟨S8192x2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x1024, .f32⟩
  | .hbm, ⟨54, _⟩ => ⟨S1x1024, .f32⟩
  | .hbm, ⟨55, _⟩ => ⟨S8192x1024, .f32⟩
  | .hbm, ⟨56, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_cst : Ref sig .tc := ⟨.hbm, 24, rfl⟩
abbrev main_call1_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_cst : Ref sig .tc := ⟨.hbm, 43, rfl⟩
abbrev main_call2_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call3_cst : Ref sig .tc := ⟨.hbm, 50, rfl⟩
abbrev main_call3_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x64_S8192x64_1_0_0_1_n_n_wf : DotDims.WF S8192x2048 S2048x64 S8192x64 [1] [0] [0] [1] [] []
  dot_S8192x64_S64x2048_S8192x2048_1_0_0_1_n_n_wf : DotDims.WF S8192x64 S64x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf
def dot_S8192x64_S64x2048_S8192x2048_1_0_0_1_n_n : DotDims S8192x64 S64x2048 S8192x2048 where
  lhsContracting := [1]
  rhsContracting := [0]
  lhsNonContracting := [0]
  rhsNonContracting := [1]
  lhsBatch := []
  rhsBatch := []
  wf := dot_S8192x64_S64x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.LibDot.lean ====
/-
  The product of an N × K matrix by a K × M matrix, read at an index.

  A product whose dimension numbers contract axis 1 of the left operand with axis 0 of the right and carry no batch
  axis has, at (n, j), the value Σ_κ l (n, κ) · r (κ, j). Stated for any dimension-numbers record whose lists have
  those values, generically in the sizes and the operands' formats, at the ideal values (a float is an extended
  real): for the host product, for the accumulating block product, and for the bare sum over the record's
  contraction index that both reduce to.
-/
import Idealize.ShloMosaic.PureOps.Ideal
import Idealize.ShloMosaic.PureOps.Ideal.Laws
import Idealize.ShloMosaic.Lib.ValueIdx
import Idealize.ShloMosaic.Lib.StackMember

noncomputable section

open scoped BigOperators

namespace Cert.LibDot

open Idealize.ShloMosaic Idealize.ShloMosaic.ValueIdx

/-- A product record of an N × K by a K × M matrix whose lists are those of the plain product (contract axis 1 of the
    left with axis 0 of the right, no batch axis) is the plain product's record: the lists agree and the
    well-formedness is a proposition. -/
theorem dot_eq_plain {N K M : Nat} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = []) :
    d = DotDims.plain N K M := by
  cases d
  simp only at hlc hrc hln hrn hlb hrb
  subst hlc hrc hln hrn hlb hrb
  rfl

/-- THE CONTRACTION'S SUM AT (n, j): over the record's contraction index, the left operand read at its left index
    times the right operand read at its right index, is the sum over κ of l (n, κ) · r (κ, j). -/
theorem contr_sum_rows {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![N, K]⟩ φ₁) (r : FVec Ideal ⟨2, ![K, M]⟩ φ₂) (n : Fin N) (j : Fin M) :
    ∑ k : d.contr.Idx, l (d.lhsIdx (ix2 n j) k) * r (d.rhsIdx (ix2 n j) k) = ∑ κ : Fin K, l (ix2 n κ) * r (ix2 κ j) := by
  rw [dot_eq_plain d hlc hrc hln hrn hlb hrb]
  exact (Ideal.dotGeneral_apply (DotDims.plain N K M) none .single l r (ix2 n j)).symm.trans
    (StackMember.dotGeneral_plain_apply none l r n j)

/-- THE HOST MATRIX PRODUCT READ AT (n, j): Σ_κ l (n, κ) · r (κ, j). -/
theorem dot_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (n : Fin N) (j : Fin M) :
    Host.dotGeneral (F := Ideal) d prec l r (ix2 n j) = ∑ κ : Fin K, l (ix2 n κ) * r (ix2 κ j) := by
  show FloatOps.dotGeneral d prec .single l r (ix2 n j) = _
  rw [Ideal.dotGeneral_apply]
  exact contr_sum_rows d hlc hrc hln hrn hlb hrb l r n j

/-- THE ACCUMULATING BLOCK PRODUCT READ AT (n, j): the accumulator's entry plus Σ_κ l (n, κ) · r (κ, j). -/
theorem matmul_rows_apply {N K M : Nat} {φ₁ φ₂ : FTy} (d : DotDims ⟨2, ![N, K]⟩ ⟨2, ![K, M]⟩ ⟨2, ![N, M]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![N, K]⟩ φ₁) (r : FVec Ideal ⟨2, ![K, M]⟩ φ₂) (acc : FVec Ideal ⟨2, ![N, M]⟩ .f32)
    (n : Fin N) (j : Fin M) :
    FloatOps.matmul d prec l r acc (ix2 n j) = acc (ix2 n j) + ∑ κ : Fin K, l (ix2 n κ) * r (ix2 κ j) := by
  rw [Ideal.matmul_apply]
  exact congrArg (acc (ix2 n j) + ·) (contr_sum_rows d hlc hrc hln hrn hlb hrb l r n j)

end Cert.LibDot

end
-- ==== Proof.Rows.lean ====
/-
  The layers of a multilayer perceptron, acting on the rows of a matrix.

  A dense layer sends a row x to the row whose entry j is Σ_k x k · W k j + b j; the rectifier sends an entry to its
  maximum with zero; the logistic function acts entry by entry. A matrix of R rows goes through a layer row by row:
  row r of the result depends on row r of the operand alone, and not on R. This is what lets a network evaluated on
  blocks of rows be compared with the same network evaluated on all rows at once: both are stated here as "the rows of
  the result are the layer of the rows of the operand", for the block product with a zero accumulator and a bias row
  broadcast down the block, and for the host product with the bias broadcast in two steps.
-/
import proofs.«422688_j59803124629848_3_alg».proof.Proof.LibDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

open scoped BigOperators

namespace Cert.Rows

open Idealize.ShloMosaic Idealize.ShloMosaic.ValueIdx

/-! ## Layers on one row -/

/-- A row times a matrix: entry j is Σ_k x k · W k j. -/
def mulRow {K N : Nat} (W : Fin K → Fin N → EReal) (x : Fin K → EReal) : Fin N → EReal :=
  fun j => ∑ k, x k * W k j

/-- A dense layer on one row: entry j is Σ_k x k · W k j + b j. -/
def dense {K N : Nat} (W : Fin K → Fin N → EReal) (b : Fin N → EReal) (x : Fin K → EReal) : Fin N → EReal :=
  fun j => mulRow W x j + b j

/-- The rectifier on one row. -/
def relu {N : Nat} (x : Fin N → EReal) : Fin N → EReal := fun j => max (x j) 0

/-- The logistic function on one row. -/
def sigm {N : Nat} (x : Fin N → EReal) : Fin N → EReal := fun j => Ideal.logistic (x j)

/-! ## Matrices by rows -/

/-- Row r of a matrix. -/
def rowOf {R K : Nat} (x : (⟨2, ![R, K]⟩ : Shape).Idx → EReal) (r : Fin R) : Fin K → EReal := fun k => x (ix2 r k)

/-- A vector's entries. -/
def vecOf {N : Nat} (b : (⟨1, ![N]⟩ : Shape).Idx → EReal) : Fin N → EReal := fun j => b (ix1 j)

/-- The matrix with the given rows. -/
def ofRows {R N : Nat} (f : Fin R → Fin N → EReal) : (⟨2, ![R, N]⟩ : Shape).Idx → EReal := fun i => f (i 0) (i 1)

theorem rowOf_ofRows {R N : Nat} (f : Fin R → Fin N → EReal) (r : Fin R) : rowOf (ofRows f) r = f r := rfl

/-- A change of float format leaves the rows as they are: a float is the extended real it denotes. -/
theorem rowOf_truncf {R K : Nat} {φ ψ : FTy} (x : FVec Ideal ⟨2, ![R, K]⟩ φ) (h : ψ.bits < φ.bits) (r : Fin R) :
    rowOf (truncf ψ x h) r = rowOf x r := rfl

theorem vecOf_truncf {N : Nat} {φ ψ : FTy} (b : FVec Ideal ⟨1, ![N]⟩ φ) (h : ψ.bits < φ.bits) :
    vecOf (truncf ψ b h) = vecOf b := rfl

theorem ofRows_apply {R N : Nat} (f : Fin R → Fin N → EReal) (r : Fin R) (j : Fin N) :
    ofRows f (ix2 r j) = f r j := rfl

/-- A matrix is the matrix of its rows. -/
theorem ofRows_rowOf {R K : Nat} (x : (⟨2, ![R, K]⟩ : Shape).Idx → EReal) : ofRows (rowOf x) = x := by
  funext i
  obtain ⟨r, k, rfl⟩ : ∃ r k, i = ix2 r k := ⟨i 0, i 1, eq_ix2 i⟩
  rfl

/-! ## A block's layers -/

/-- THE BLOCK PRODUCT: the product of a block of rows by a weight matrix into a zero accumulator has as its rows the
    block's rows times the matrix. -/
theorem matmul_rows {R K N : Nat} {φx φw : FTy} (d : DotDims ⟨2, ![R, K]⟩ ⟨2, ![K, N]⟩ ⟨2, ![R, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![R, K]⟩ φx) (W : FVec Ideal ⟨2, ![K, N]⟩ φw) :
    matmul d none x W (constant ⟨2, ![R, N]⟩ .f32 0x00000000#32)
      = ofRows (fun r => mulRow (rowOf W) (rowOf x r)) := by
  funext i
  obtain ⟨r, j, rfl⟩ : ∃ r j, i = ix2 r j := ⟨i 0, i 1, eq_ix2 i⟩
  unfold matmul
  rw [LibDot.matmul_rows_apply d hlc hrc hln hrn hlb hrb none x W _ r j,
    constant_apply, Ideal.ofBits_zero_f32, zero_add]
  rfl

/-- A BIAS ROW laid along every row of a block and added: row by row the sum with the bias. -/
theorem bias_rows {R N : Nat} (y : FVec Ideal ⟨2, ![R, N]⟩ .f32) (b : FVec Ideal ⟨1, ![N]⟩ .f32)
    (hb1 : (⟨1, ![N]⟩ : Shape).ShapeCasts ⟨2, ![1, N]⟩) (hb2 : (⟨2, ![1, N]⟩ : Shape).Broadcasts ⟨2, ![R, N]⟩) :
    addf y (broadcastTo ⟨2, ![R, N]⟩ (shapeCast ⟨2, ![1, N]⟩ b hb1) hb2)
      = ofRows (fun r j => rowOf y r j + vecOf b j) := by
  funext i
  obtain ⟨r, j, rfl⟩ : ∃ r j, i = ix2 r j := ⟨i 0, i 1, eq_ix2 i⟩
  rw [addf_apply, broadcastTo_1b_ab_apply, shapeCast_a_1a_apply]
  rfl

/-- THE BLOCK PRODUCT PLUS A BIAS ROW: the product of a block of rows by a weight matrix into a zero accumulator, plus the
    bias laid along every row, has as its rows the dense layer of the block's rows. -/
theorem matmul_bias_rows {R K N : Nat} {φx φw : FTy} (d : DotDims ⟨2, ![R, K]⟩ ⟨2, ![K, N]⟩ ⟨2, ![R, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![R, K]⟩ φx) (W : FVec Ideal ⟨2, ![K, N]⟩ φw) (b : FVec Ideal ⟨1, ![N]⟩ .f32)
    (hb1 : (⟨1, ![N]⟩ : Shape).ShapeCasts ⟨2, ![1, N]⟩)
    (hb2 : (⟨2, ![1, N]⟩ : Shape).Broadcasts ⟨2, ![R, N]⟩) :
    addf (matmul d none x W (constant ⟨2, ![R, N]⟩ .f32 0x00000000#32))
        (broadcastTo ⟨2, ![R, N]⟩ (shapeCast ⟨2, ![1, N]⟩ b hb1) hb2)
      = ofRows (fun r => dense (rowOf W) (vecOf b) (rowOf x r)) := by
  funext i
  obtain ⟨r, j, rfl⟩ : ∃ r j, i = ix2 r j := ⟨i 0, i 1, eq_ix2 i⟩
  unfold matmul
  rw [addf_apply, LibDot.matmul_rows_apply d hlc hrc hln hrn hlb hrb none x W _ r j,
    broadcastTo_1b_ab_apply, shapeCast_a_1a_apply, constant_apply, Ideal.ofBits_zero_f32, zero_add]
  rfl

/-- THE RECTIFIER, then the change of format: entry by entry the maximum with zero. -/
theorem relu_rows {R N : Nat} (y : FVec Ideal ⟨2, ![R, N]⟩ .f32) (h : FTy.bits .bf16 < FTy.bits .f32) :
    truncf .bf16 (maximumf y (broadcast ⟨2, ![R, N]⟩ (Scalar.ofBits (F := Ideal) .f32 0x00000000#32))) h
      = ofRows (fun r => relu (rowOf y r)) := by
  funext i
  obtain ⟨r, j, rfl⟩ : ∃ r j, i = ix2 r j := ⟨i 0, i 1, eq_ix2 i⟩
  show max (y (ix2 r j)) (Ideal.ofBits .f32 0x00000000#32) = max (y (ix2 r j)) 0
  rw [Ideal.ofBits_zero_f32]

/-- THE LOGISTIC FUNCTION on a block, row by row. -/
theorem logistic_rows {R N : Nat} (y : FVec Ideal ⟨2, ![R, N]⟩ .f32) :
    logistic y = ofRows (fun r => sigm (rowOf y r)) := by
  funext i
  obtain ⟨r, j, rfl⟩ : ∃ r j, i = ix2 r j := ⟨i 0, i 1, eq_ix2 i⟩
  rfl

/-! ## The host's layers -/

/-- THE HOST PRODUCT PLUS A BIAS: the host's product of a matrix by a weight matrix plus the bias, broadcast first to a
    one-row matrix and then down the rows, has as its rows the dense layer of the operand's rows. -/
theorem dot_bias_rows {R K N : Nat} {φx φw : FTy} (d : DotDims ⟨2, ![R, K]⟩ ⟨2, ![K, N]⟩ ⟨2, ![R, N]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![R, K]⟩ φx) (W : FVec Ideal ⟨2, ![K, N]⟩ φw) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1]) :
    addf (Host.dotGeneral (F := Ideal) d none x W)
        (broadcastInDim ⟨2, ![R, N]⟩ ![0, 1] hb2 (broadcastInDim ⟨2, ![1, N]⟩ ![1] hb1 b))
      = ofRows (fun r => dense (rowOf W) (vecOf b) (rowOf x r)) := by
  funext i
  obtain ⟨r, j, rfl⟩ : ∃ r j, i = ix2 r j := ⟨i 0, i 1, eq_ix2 i⟩
  rw [addf_apply, LibDot.dot_rows_apply d hlc hrc hln hrn hlb hrb none x W r j, broadcastInDim_oneRow_apply]
  refine congrArg (_ + ·) ?_
  refine broadcastInDim_apply ![1] hb1 b (ix2 (0 : Fin 1) j) (ix1 j) fun a => ?_
  match a with
  | ⟨0, _⟩ =>
    show j.val = if N = 1 then 0 else j.val
    split
    · have := j.isLt; omega
    · rfl

/-- THE HOST'S RECTIFIER: the maximum with the zero constant broadcast to the matrix. -/
theorem host_relu_rows {R N : Nat} (y : FVec Ideal ⟨2, ![R, N]⟩ .f32)
    (h0 : (⟨0, ![]⟩ : Shape).BroadcastsInDim ⟨2, ![R, N]⟩ ![]) :
    maximumf y (broadcastInDim ⟨2, ![R, N]⟩ ![] h0 (constant (F := Ideal) ⟨0, ![]⟩ .f32 0x00000000#32))
      = ofRows (fun r => relu (rowOf y r)) := by
  funext i
  obtain ⟨r, j, rfl⟩ : ∃ r j, i = ix2 r j := ⟨i 0, i 1, eq_ix2 i⟩
  show max (y (ix2 r j)) (Ideal.ofBits .f32 0x00000000#32) = max (y (ix2 r j)) 0
  rw [Ideal.ofBits_zero_f32]

/-- THE HOST'S LOGISTIC FUNCTION as jax expands it, one over one plus the exponential of the negation, is the logistic
    function row by row. -/
theorem host_logistic_rows {R N : Nat} (y : FVec Ideal ⟨2, ![R, N]⟩ .f32)
    (h0 : (⟨0, ![]⟩ : Shape).BroadcastsInDim ⟨2, ![R, N]⟩ ![]) :
    Host.divf (broadcastInDim ⟨2, ![R, N]⟩ ![] h0 (constant (F := Ideal) ⟨0, ![]⟩ .f32 0x3F800000#32))
        (addf (broadcastInDim ⟨2, ![R, N]⟩ ![] h0 (constant (F := Ideal) ⟨0, ![]⟩ .f32 0x3F800000#32)) (Host.exp (Host.negf y)))
      = ofRows (fun r => sigm (rowOf y r)) := by
  funext i
  obtain ⟨r, j, rfl⟩ : ∃ r j, i = ix2 r j := ⟨i 0, i 1, eq_ix2 i⟩
  show Ideal.div (Ideal.ofBits .f32 0x3F800000#32) (Ideal.ofBits .f32 0x3F800000#32 + Ideal.exp (-(y (ix2 r j))))
    = Ideal.logistic (y (ix2 r j))
  rw [Ideal.ofBits_one_f32]
  rfl

end Cert.Rows

end
-- ==== Proof.Net.lean ====
/-
  The autoencoder on one row, and why widening its bottleneck with zeros changes nothing.

  The encoder is three dense layers with the rectifier after the first two and the logistic function after the third; the
  decoder is three dense layers with the rectifier after the first two. The bottleneck between them has C entries.

  Widen the bottleneck to C + P entries: give the encoder's last weight matrix P more columns and its bias P more
  entries, all zero, and the decoder's first weight matrix P more rows, all zero. The first C entries of the widened
  bottleneck are the bottleneck's, because entry j of a dense layer reads column j of the weights and entry j of the bias
  only. The decoder's first layer then sums c_j · W_j over C + P rows, and the last P products are c_j · 0 = 0 — on the
  extended reals too, where anything times zero is zero — so the sum is the one over the first C rows. No finiteness
  is used.
-/
import proofs.«422688_j59803124629848_3_alg».proof.Proof.Rows

noncomputable section

open scoped BigOperators

namespace Cert.Net

open Cert.Rows

/-! ## The network on one row -/

/-- The encoder on one row: the bottleneck's entries, each strictly between 0 and 1 at real arguments. -/
def encRow {D H C : Nat} (We1 : Fin D → Fin H → EReal) (be1 : Fin H → EReal) (We2 : Fin H → Fin H → EReal)
    (be2 : Fin H → EReal) (We3 : Fin H → Fin C → EReal) (be3 : Fin C → EReal) (x : Fin D → EReal) : Fin C → EReal :=
  sigm (dense We3 be3 (relu (dense We2 be2 (relu (dense We1 be1 x)))))

/-- The decoder on one row of the bottleneck. -/
def decRow {C H S : Nat} (Wd1 : Fin C → Fin H → EReal) (bd1 : Fin H → EReal) (Wd2 : Fin H → Fin H → EReal)
    (bd2 : Fin H → EReal) (Wd3 : Fin H → Fin S → EReal) (bd3 : Fin S → EReal) (c : Fin C → EReal) : Fin S → EReal :=
  dense Wd3 bd3 (relu (dense Wd2 bd2 (relu (dense Wd1 bd1 c))))

/-! ## Widening by zeros -/

/-- A row followed by P zeros. -/
def padVec {N : Nat} (P : Nat) (b : Fin N → EReal) : Fin (N + P) → EReal :=
  fun j => if h : j.val < N then b ⟨j.val, h⟩ else 0

/-- A matrix with P zero columns added on the right. -/
def padCols {K N : Nat} (P : Nat) (W : Fin K → Fin N → EReal) : Fin K → Fin (N + P) → EReal :=
  fun k => padVec P (W k)

/-- A matrix with P zero rows added below. -/
def padRows {N K : Nat} (P : Nat) (W : Fin N → Fin K → EReal) : Fin (N + P) → Fin K → EReal :=
  fun j k => if h : j.val < N then W ⟨j.val, h⟩ k else 0

theorem padVec_castAdd {N : Nat} (P : Nat) (b : Fin N → EReal) (j : Fin N) : padVec P b (Fin.castAdd P j) = b j := by
  unfold padVec
  rw [dif_pos (show (Fin.castAdd P j).val < N from j.isLt)]
  rfl

/-- Entry j < N of a dense layer whose weights and bias were widened by zero columns is the layer's entry j. -/
theorem dense_padCols {K N : Nat} (P : Nat) (W : Fin K → Fin N → EReal) (b : Fin N → EReal) (x : Fin K → EReal)
    (j : Fin N) : dense (padCols P W) (padVec P b) x (Fin.castAdd P j) = dense W b x j := by
  unfold dense mulRow padCols
  rw [padVec_castAdd]
  exact congrArg (· + b j) (Finset.sum_congr rfl fun k _ => by rw [padVec_castAdd])

/-- A dense layer whose weights were widened by zero rows reads the first N entries of its operand only. -/
theorem dense_padRows {N K : Nat} (P : Nat) (W : Fin N → Fin K → EReal) (b : Fin K → EReal)
    (c : Fin (N + P) → EReal) : dense (padRows P W) b c = dense W b (fun k => c (Fin.castAdd P k)) := by
  funext j
  unfold dense mulRow
  refine congrArg (· + b j) ?_
  rw [Fin.sum_univ_add]
  have hz : ∑ i : Fin P, c (Fin.natAdd N i) * padRows P W (Fin.natAdd N i) j = 0 :=
    Finset.sum_eq_zero fun i _ => by
      unfold padRows
      rw [dif_neg (show ¬ (Fin.natAdd N i).val < N by simp), mul_zero]
  rw [hz, add_zero]
  refine Finset.sum_congr rfl fun i _ => ?_
  unfold padRows
  rw [dif_pos (show (Fin.castAdd P i).val < N from i.isLt)]
  rfl

/-- THE BOTTLENECK WIDENED BY ZEROS: its first C entries are the encoder's. -/
theorem encRow_pad {D H C : Nat} (P : Nat) (We1 : Fin D → Fin H → EReal) (be1 : Fin H → EReal)
    (We2 : Fin H → Fin H → EReal) (be2 : Fin H → EReal) (We3 : Fin H → Fin C → EReal) (be3 : Fin C → EReal)
    (x : Fin D → EReal) (j : Fin C) :
    encRow We1 be1 We2 be2 (padCols P We3) (padVec P be3) x (Fin.castAdd P j) = encRow We1 be1 We2 be2 We3 be3 x j := by
  unfold encRow sigm
  rw [dense_padCols]

/-- THE DECODER ON THE WIDENED BOTTLENECK, its first weight matrix widened by zero rows, is the decoder on the
    bottleneck. -/
theorem decRow_pad {D H C S : Nat} (P : Nat) (We1 : Fin D → Fin H → EReal) (be1 : Fin H → EReal)
    (We2 : Fin H → Fin H → EReal) (be2 : Fin H → EReal) (We3 : Fin H → Fin C → EReal) (be3 : Fin C → EReal)
    (Wd1 : Fin C → Fin H → EReal) (bd1 : Fin H → EReal) (Wd2 : Fin H → Fin H → EReal) (bd2 : Fin H → EReal)
    (Wd3 : Fin H → Fin S → EReal) (bd3 : Fin S → EReal) (x : Fin D → EReal) :
    decRow (padRows P Wd1) bd1 Wd2 bd2 Wd3 bd3 (encRow We1 be1 We2 be2 (padCols P We3) (padVec P be3) x)
      = decRow Wd1 bd1 Wd2 bd2 Wd3 bd3 (encRow We1 be1 We2 be2 We3 be3 x) := by
  unfold decRow
  rw [dense_padRows]
  have h : (fun k => encRow We1 be1 We2 be2 (padCols P We3) (padVec P be3) x (Fin.castAdd P k))
      = encRow We1 be1 We2 be2 We3 be3 x := funext fun k => encRow_pad P We1 be1 We2 be2 We3 be3 x k
  rw [h]

end Cert.Net

end
-- ==== Proof.Block.lean ====
/-
  What one block of 256 rows goes through, as the autoencoder on each of its rows.

  The body's stored values are compositions of block products into zero accumulators, bias rows laid along the block,
  rectifiers, format changes and the logistic function. Read row by row they are the encoder of the block's rows (the
  bottleneck, 128 entries wide here) and the decoder of that bottleneck, with the loaded weight matrices and bias
  vectors as the layers' parameters. A format change is the identity on extended reals.
-/
import proofs.«422688_j59803124629848_3_alg».proof.Proof.Gen.KernelIdeal.Skeleton
import proofs.«422688_j59803124629848_3_alg».proof.Proof.Net

noncomputable section

namespace Cert.KernelIdeal.Block

open Cert.KernelIdeal Cert.KernelIdeal.Gen Idealize.ShloMosaic Cert.Rows Cert.Net

/-- THE BOTTLENECK OF A BLOCK: row p of the stored logistic values is the encoder of row p of the loaded block. -/
theorem bottleneck_rows (v0 : Vec Ideal S256x1024 .f32) (v2 : Vec Ideal S1024x2048 .bf16) (v5 : Vec Ideal S2048 .f32)
    (v12 : Vec Ideal S2048x2048 .bf16) (v15 : Vec Ideal S2048 .f32) (v22 : Vec Ideal S2048x128 .bf16)
    (v25 : Vec Ideal S128 .f32) :
    k0_pay2 (F := Ideal) v0 v2 v5 v12 v15 v22 v25
      = ofRows (fun p => encRow (rowOf v2) (vecOf v5) (rowOf v12) (vecOf v15) (rowOf v22) (vecOf v25) (rowOf v0 p)) := by
  unfold k0_pay2
  simp only [shapeCast_self]
  rw [matmul_bias_rows dot_S256x1024_S1024x2048_S256x2048_1_0_0_1_n_n rfl rfl rfl rfl rfl rfl, relu_rows,
    matmul_bias_rows dot_S256x2048_S2048x2048_S256x2048_1_0_0_1_n_n rfl rfl rfl rfl rfl rfl, relu_rows,
    matmul_bias_rows dot_S256x2048_S2048x128_S256x128_1_0_0_1_n_n rfl rfl rfl rfl rfl rfl, logistic_rows]
  simp only [rowOf_ofRows, rowOf_truncf]
  rfl

/-- THE STATE OF A BLOCK: row p of the stored state is the decoder of the bottleneck of row p. -/
theorem state_rows (v0 : Vec Ideal S256x1024 .f32) (v2 : Vec Ideal S1024x2048 .bf16) (v5 : Vec Ideal S2048 .f32)
    (v12 : Vec Ideal S2048x2048 .bf16) (v15 : Vec Ideal S2048 .f32) (v22 : Vec Ideal S2048x128 .bf16)
    (v25 : Vec Ideal S128 .f32) (v33 : Vec Ideal S128x2048 .bf16) (v36 : Vec Ideal S2048 .f32)
    (v43 : Vec Ideal S2048x2048 .bf16) (v46 : Vec Ideal S2048 .f32) (v53 : Vec Ideal S2048x1024 .bf16)
    (v56 : Vec Ideal S1024 .f32) :
    k0_pay1 (F := Ideal) (k0_pay3 v0 v2 v5 v12 v15 v22 v25 v33) v36 v43 v46 v53 v56
      = ofRows (fun p => decRow (rowOf v33) (vecOf v36) (rowOf v43) (vecOf v46) (rowOf v53) (vecOf v56)
          (encRow (rowOf v2) (vecOf v5) (rowOf v12) (vecOf v15) (rowOf v22) (vecOf v25) (rowOf v0 p))) := by
  unfold k0_pay1 k0_pay3
  rw [bottleneck_rows]
  simp only [shapeCast_self]
  rw [matmul_bias_rows dot_S256x2048_S2048x1024_S256x1024_1_0_0_1_n_n rfl rfl rfl rfl rfl rfl,
    matmul_bias_rows dot_S256x2048_S2048x2048_S256x2048_1_0_0_1_n_n rfl rfl rfl rfl rfl rfl,
    matmul_rows dot_S256x128_S128x2048_S256x2048_1_0_0_1_n_n rfl rfl rfl rfl rfl rfl, bias_rows, relu_rows, relu_rows]
  simp only [rowOf_ofRows, rowOf_truncf]
  rfl

end Cert.KernelIdeal.Block

end
-- ==== Proof.Pads.lean ====
/-
  Zero padding of the host's arrays, row by row.

  The host widens the encoder's last weight matrix and bias on the right, and the decoder's first weight matrix below,
  with a padding value that is the integer zero converted to a float: the float zero. Read by rows these are the
  widenings by zeros of the matrices' rows and of the bias. Cutting the widened bottleneck back to its first columns
  keeps, row by row, the first entries.
-/
import proofs.«422688_j59803124629848_3_alg».proof.Proof.Net

noncomputable section

namespace Cert.Pads

open Idealize.ShloMosaic Idealize.ShloMosaic.ValueIdx Cert.Rows Cert.Net

/-- The padding value: the integer zero converted to a float is zero, at every index of its (scalar) shape. -/
theorem padding_value_zero {u : Shape} (i : u.Idx) :
    (sitofp (F := Ideal) .f32 (constantI u 32 0#32) : FVec Ideal u .f32) i = 0 :=
  sitofp_zero (φ := .f32)

/-- A matrix padded with P columns on the right: each row is the row followed by P copies of the padding value, here
    zero. -/
theorem rowOf_pad_right {K N : Nat} (P : Nat) (x : (⟨2, ![K, N]⟩ : Shape).Idx → EReal) {u : Shape} (v : u.Idx → EReal)
    (hv : ∀ i, v i = 0) (h : (⟨2, ![K, N]⟩ : Shape).Pads (![0, 0] : Fin 2 → Nat) ![0, P] ![0, 0] ⟨2, ![K, N + P]⟩)
    (hu : 0 < u.numel) :
    rowOf (pad ⟨2, ![K, N + P]⟩ ![0, 0] ![0, P] ![0, 0] x v h hu) = padCols P (rowOf x) := by
  funext k j
  show pad ⟨2, ![K, N + P]⟩ ![0, 0] ![0, P] ![0, 0] x v h hu (ix2 k j) = padVec P (rowOf x k) j
  unfold padVec
  by_cases hj : j.val < N
  · rw [dif_pos hj]
    exact pad_apply_of_inside _ _ _ x v h hu _ (ix2 k (⟨j.val, hj⟩ : Fin N)) (by
      intro a
      match a with
      | ⟨0, _⟩ => show k.val = 0 + k.val * (0 + 1); omega
      | ⟨1, _⟩ => show j.val = 0 + j.val * (0 + 1); omega)
  · rw [dif_neg hj, ← hv (Shape.Idx.first hu)]
    exact pad_apply_of_not_inside _ _ _ x v h hu _ (1 : Fin 2) (by
      intro hin
      have e : (j.val - 0) / (0 + 1) < N := hin.2.2
      simp at e
      exact hj e)

/-- A matrix padded with P rows below: the rows are the matrix's, then P rows of the padding value, here zero. -/
theorem rowOf_pad_below {N K : Nat} (P : Nat) (x : (⟨2, ![N, K]⟩ : Shape).Idx → EReal) {u : Shape} (v : u.Idx → EReal)
    (hv : ∀ i, v i = 0) (h : (⟨2, ![N, K]⟩ : Shape).Pads (![0, 0] : Fin 2 → Nat) ![P, 0] ![0, 0] ⟨2, ![N + P, K]⟩)
    (hu : 0 < u.numel) :
    rowOf (pad ⟨2, ![N + P, K]⟩ ![0, 0] ![P, 0] ![0, 0] x v h hu) = padRows P (rowOf x) := by
  funext j k
  show pad ⟨2, ![N + P, K]⟩ ![0, 0] ![P, 0] ![0, 0] x v h hu (ix2 j k) = padRows P (rowOf x) j k
  unfold padRows
  by_cases hj : j.val < N
  · rw [dif_pos hj]
    exact pad_apply_of_inside _ _ _ x v h hu _ (ix2 (⟨j.val, hj⟩ : Fin N) k) (by
      intro a
      match a with
      | ⟨0, _⟩ => show j.val = 0 + j.val * (0 + 1); omega
      | ⟨1, _⟩ => show k.val = 0 + k.val * (0 + 1); omega)
  · rw [dif_neg hj, ← hv (Shape.Idx.first hu)]
    exact pad_apply_of_not_inside _ _ _ x v h hu _ (0 : Fin 2) (by
      intro hin
      have e : (j.val - 0) / (0 + 1) < N := hin.2.2
      simp at e
      exact hj e)

/-- A vector padded with P entries at its end. -/
theorem vecOf_pad_end {N : Nat} (P : Nat) (x : (⟨1, ![N]⟩ : Shape).Idx → EReal) {u : Shape} (v : u.Idx → EReal)
    (hv : ∀ i, v i = 0) (h : (⟨1, ![N]⟩ : Shape).Pads (![0] : Fin 1 → Nat) ![P] ![0] ⟨1, ![N + P]⟩)
    (hu : 0 < u.numel) :
    vecOf (pad ⟨1, ![N + P]⟩ ![0] ![P] ![0] x v h hu) = padVec P (vecOf x) := by
  funext j
  show pad ⟨1, ![N + P]⟩ ![0] ![P] ![0] x v h hu (ix1 j) = padVec P (vecOf x) j
  unfold padVec
  by_cases hj : j.val < N
  · rw [dif_pos hj]
    exact pad_apply_of_inside _ _ _ x v h hu _ (ix1 (⟨j.val, hj⟩ : Fin N)) (by
      intro a
      have ha : a = 0 := Subsingleton.elim _ _
      subst ha
      show j.val = 0 + j.val * (0 + 1); omega)
  · rw [dif_neg hj, ← hv (Shape.Idx.first hu)]
    exact pad_apply_of_not_inside _ _ _ x v h hu _ (0 : Fin 1) (by
      intro hin
      have e : (j.val - 0) / (0 + 1) < N := hin.2.2
      simp at e
      exact hj e)

/-- A matrix cut to its first N columns: each row keeps its first N entries. -/
theorem rowOf_slice_left {R N : Nat} (P : Nat) (x : (⟨2, ![R, N + P]⟩ : Shape).Idx → EReal)
    (h : (⟨2, ![R, N + P]⟩ : Shape).Slices ![0, 0] ⟨2, ![R, N]⟩) (r : Fin R) (j : Fin N) :
    rowOf (extractStridedSlice ⟨2, ![R, N]⟩ ![0, 0] x h) r j = rowOf x r (Fin.castAdd P j) :=
  slice2_axis1_apply 0 x h r j (Fin.castAdd P j) (by show j.val = 0 + j.val; omega)

end Cert.Pads

end
-- ==== Proof.Entry.lean ====
/-
  What the one region finds in its windows' arrays.

  The input and the five bias vectors that need no padding are the arguments themselves. The four weight matrices that
  are only converted to the narrower float format are the arguments too: a float is the extended real it denotes, so a
  change of format changes nothing. The encoder's last weight matrix and bias, and the decoder's first weight matrix,
  are the arguments widened by zeros — 64 columns, 64 entries, 64 rows — the padding value being the integer zero
  converted to a float.
-/
import proofs.«422688_j59803124629848_3_alg».proof.Proof.Gen.KernelIdeal.Frame
import proofs.«422688_j59803124629848_3_alg».proof.Proof.Pads

noncomputable section

namespace Cert.KernelIdeal.Entry

open Cert.KernelIdeal Cert.KernelIdeal.Gen Idealize.ShloMosaic Idealize.ShloMosaic.TcCoe Idealize.SL.Sem
open Idealize.ShloMosaic.StableHlo Cert.Rows Cert.Net Cert.Pads

variable (m : (ℓ : Loc nD τ sig) → Buf (Elt Ideal) ℓ)

/-- The encoder's first weight matrix, converted: the argument. -/
theorem found_We1 (c : Dev nD) : (V m c main_v0 : S1024x2048.Idx → EReal) = (m ((c : Thread nD τ).loc main_arg1)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The encoder's second weight matrix, converted: the argument. -/
theorem found_We2 (c : Dev nD) : (V m c main_v1 : S2048x2048.Idx → EReal) = (m ((c : Thread nD τ).loc main_arg3)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The decoder's second weight matrix, converted: the argument. -/
theorem found_Wd2 (c : Dev nD) : (V m c main_v2 : S2048x2048.Idx → EReal) = (m ((c : Thread nD τ).loc main_arg9)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The decoder's third weight matrix, converted: the argument. -/
theorem found_Wd3 (c : Dev nD) : (V m c main_v3 : S2048x1024.Idx → EReal) = (m ((c : Thread nD τ).loc main_arg11)) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The encoder's third weight matrix, widened by 64 zero columns and converted. -/
theorem found_We3 (c : Dev nD) : rowOf (V m c main_v7 : S2048x128.Idx → EReal) = padCols 64 (rowOf (m ((c : Thread nD τ).loc main_arg5))) := by
  have e : (V m c main_v7 : S2048x128.Idx → EReal)
      = pad S2048x128 ![0, 0] ![0, 64] ![0, 0] (m ((c : Thread nD τ).loc main_arg5)) (sitofp (F := Ideal) .f32 (constantI S_ 32 0#32))
          pads_S2048x64_S2048x128_000_0640 h_S_ := by
    dsimp only [V, V0]
    simp only [hostOps0, hostOps0_1, hostOps0_2, hostOps0_3, hostOps0_4, hostOps0_5, hostOps0_6, List.flatten_cons, List.flatten_nil, List.append_nil, List.cons_append, List.nil_append]
    after_results
    rfl
  rw [e]
  exact rowOf_pad_right (K := 2048) (N := 64) 64 _ _ padding_value_zero _ _

/-- The encoder's third bias, widened by 64 zeros. -/
theorem found_be3 (c : Dev nD) : vecOf (V m c main_v5 : S128.Idx → EReal) = padVec 64 (vecOf (m ((c : Thread nD τ).loc main_arg6))) := by
  have e : (V m c main_v5 : S128.Idx → EReal)
      = pad S128 ![0] ![64] ![0] (m ((c : Thread nD τ).loc main_arg6)) (sitofp (F := Ideal) .f32 (constantI S_ 32 0#32))
          pads_S64_S128_0640 h_S_ := by
    dsimp only [V, V0]
    simp only [hostOps0, hostOps0_1, hostOps0_2, hostOps0_3, hostOps0_4, hostOps0_5, hostOps0_6, List.flatten_cons, List.flatten_nil, List.append_nil, List.cons_append, List.nil_append]
    after_results
    rfl
  rw [e]
  exact vecOf_pad_end (N := 64) 64 _ _ padding_value_zero _ _

/-- The decoder's first weight matrix, widened by 64 zero rows and converted. -/
theorem found_Wd1 (c : Dev nD) : rowOf (V m c main_v8 : S128x2048.Idx → EReal) = padRows 64 (rowOf (m ((c : Thread nD τ).loc main_arg7))) := by
  have e : (V m c main_v8 : S128x2048.Idx → EReal)
      = pad S128x2048 ![0, 0] ![64, 0] ![0, 0] (m ((c : Thread nD τ).loc main_arg7)) (sitofp (F := Ideal) .f32 (constantI S_ 32 0#32))
          pads_S64x2048_S128x2048_0640_000 h_S_ := by
    dsimp only [V, V0]
    simp only [hostOps0, hostOps0_1, hostOps0_2, hostOps0_3, hostOps0_4, hostOps0_5, hostOps0_6, List.flatten_cons, List.flatten_nil, List.append_nil, List.cons_append, List.nil_append]
    after_results
    rfl
  rw [e]
  exact rowOf_pad_below (N := 64) (K := 2048) 64 _ _ padding_value_zero _ _

end Cert.KernelIdeal.Entry

end
-- ==== Proof.Reads.lean ====
/-
  The windows' blocks as parts of their arrays.

  Twelve of the fifteen windows have a constant index map and a block as large as the array: at every grid point the
  block is the whole array. The input's window moves down the rows with the one grid coordinate: at point t its block is
  rows 256 t to 256 t + 255 of the input, so row p of the block is row 256 t + p of the array.
-/
import proofs.«422688_j59803124629848_3_alg».proof.Proof.Gen.KernelIdeal.Frame
import proofs.«422688_j59803124629848_3_alg».proof.Proof.Rows

noncomputable section

namespace Cert.KernelIdeal.Reads

open Cert.KernelIdeal Cert.KernelIdeal.Gen Idealize.ShloMosaic Idealize.ShloMosaic.TcCoe Idealize.SL.Sem
open Idealize.ShloMosaic.ValueIdx Cert.Rows

variable (m : (ℓ : Loc nD τ sig) → Buf (Elt Ideal) ℓ)

/-- The grid has 32 points. -/
theorem point_lt (t : Fin cfg0.N) : t.val < 32 := by
  have h := t.isLt
  have hN : cfg0.N = 32 := N_0
  omega

/-! ## The windows whose block is the whole array -/

theorem idx_1 : ∀ t : Fin cfg0.N, win0_1.index t (0 : Fin 2) = 0 ∧ win0_1.index t (1 : Fin 2) = 0 :=
  (by decide +kernel : ∀ t : Fin grid0.N, _)

theorem blk_1 (c : Dev nD) (t : Fin cfg0.N) : (iblk m c 1 t : S1024x2048.Idx → EReal) = V m c main_v0 := by
  obtain ⟨e0, e1⟩ := idx_1 t
  funext y
  show (V m c main_v0 : S1024x2048.Idx → EReal) (((cfg0.win 1).blk t).view.emb y) = (V m c main_v0 : S1024x2048.Idx → EReal) y
  refine congrArg (V m c main_v0 : S1024x2048.Idx → EReal) (funext fun a => Fin.ext ?_)
  match a with
  | ⟨0, _⟩ => show win0_1.index t (0 : Fin 2) * 1024 + 1 * (y 0).val = (y 0).val; omega
  | ⟨1, _⟩ => show win0_1.index t (1 : Fin 2) * 2048 + 1 * (y 1).val = (y 1).val; omega

theorem idx_2 : ∀ t : Fin cfg0.N, win0_2.index t (0 : Fin 1) = 0 :=
  (by decide +kernel : ∀ t : Fin grid0.N, _)

theorem blk_2 (c : Dev nD) (t : Fin cfg0.N) : (iblk m c 2 t : S2048.Idx → EReal) = V m c main_arg2 := by
  have e0 := idx_2 t
  funext y
  show (V m c main_arg2 : S2048.Idx → EReal) (((cfg0.win 2).blk t).view.emb y) = (V m c main_arg2 : S2048.Idx → EReal) y
  refine congrArg (V m c main_arg2 : S2048.Idx → EReal) (funext fun a => Fin.ext ?_)
  match a with
  | ⟨0, _⟩ => show win0_2.index t (0 : Fin 1) * 2048 + 1 * (y 0).val = (y 0).val; omega

theorem idx_3 : ∀ t : Fin cfg0.N, win0_3.index t (0 : Fin 2) = 0 ∧ win0_3.index t (1 : Fin 2) = 0 :=
  (by decide +kernel : ∀ t : Fin grid0.N, _)

theorem blk_3 (c : Dev nD) (t : Fin cfg0.N) : (iblk m c 3 t : S2048x2048.Idx → EReal) = V m c main_v1 := by
  obtain ⟨e0, e1⟩ := idx_3 t
  funext y
  show (V m c main_v1 : S2048x2048.Idx → EReal) (((cfg0.win 3).blk t).view.emb y) = (V m c main_v1 : S2048x2048.Idx → EReal) y
  refine congrArg (V m c main_v1 : S2048x2048.Idx → EReal) (funext fun a => Fin.ext ?_)
  match a with
  | ⟨0, _⟩ => show win0_3.index t (0 : Fin 2) * 2048 + 1 * (y 0).val = (y 0).val; omega
  | ⟨1, _⟩ => show win0_3.index t (1 : Fin 2) * 2048 + 1 * (y 1).val = (y 1).val; omega

theorem idx_4 : ∀ t : Fin cfg0.N, win0_4.index t (0 : Fin 1) = 0 :=
  (by decide +kernel : ∀ t : Fin grid0.N, _)

theorem blk_4 (c : Dev nD) (t : Fin cfg0.N) : (iblk m c 4 t : S2048.Idx → EReal) = V m c main_arg4 := by
  have e0 := idx_4 t
  funext y
  show (V m c main_arg4 : S2048.Idx → EReal) (((cfg0.win 4).blk t).view.emb y) = (V m c main_arg4 : S2048.Idx → EReal) y
  refine congrArg (V m c main_arg4 : S2048.Idx → EReal) (funext fun a => Fin.ext ?_)
  match a with
  | ⟨0, _⟩ => show win0_4.index t (0 : Fin 1) * 2048 + 1 * (y 0).val = (y 0).val; omega

theorem idx_5 : ∀ t : Fin cfg0.N, win0_5.index t (0 : Fin 2) = 0 ∧ win0_5.index t (1 : Fin 2) = 0 :=
  (by decide +kernel : ∀ t : Fin grid0.N, _)

theorem blk_5 (c : Dev nD) (t : Fin cfg0.N) : (iblk m c 5 t : S2048x128.Idx → EReal) = V m c main_v7 := by
  obtain ⟨e0, e1⟩ := idx_5 t
  funext y
  show (V m c main_v7 : S2048x128.Idx → EReal) (((cfg0.win 5).blk t).view.emb y) = (V m c main_v7 : S2048x128.Idx → EReal) y
  refine congrArg (V m c main_v7 : S2048x128.Idx → EReal) (funext fun a => Fin.ext ?_)
  match a with
  | ⟨0, _⟩ => show win0_5.index t (0 : Fin 2) * 2048 + 1 * (y 0).val = (y 0).val; omega
  | ⟨1, _⟩ => show win0_5.index t (1 : Fin 2) * 128 + 1 * (y 1).val = (y 1).val; omega

theorem idx_6 : ∀ t : Fin cfg0.N, win0_6.index t (0 : Fin 1) = 0 :=
  (by decide +kernel : ∀ t : Fin grid0.N, _)

theorem blk_6 (c : Dev nD) (t : Fin cfg0.N) : (iblk m c 6 t : S128.Idx → EReal) = V m c main_v5 := by
  have e0 := idx_6 t
  funext y
  show (V m c main_v5 : S128.Idx → EReal) (((cfg0.win 6).blk t).view.emb y) = (V m c main_v5 : S128.Idx → EReal) y
  refine congrArg (V m c main_v5 : S128.Idx → EReal) (funext fun a => Fin.ext ?_)
  match a with
  | ⟨0, _⟩ => show win0_6.index t (0 : Fin 1) * 128 + 1 * (y 0).val = (y 0).val; omega

theorem idx_7 : ∀ t : Fin cfg0.N, win0_7.index t (0 : Fin 2) = 0 ∧ win0_7.index t (1 : Fin 2) = 0 :=
  (by decide +kernel : ∀ t : Fin grid0.N, _)

theorem blk_7 (c : Dev nD) (t : Fin cfg0.N) : (iblk m c 7 t : S128x2048.Idx → EReal) = V m c main_v8 := by
  obtain ⟨e0, e1⟩ := idx_7 t
  funext y
  show (V m c main_v8 : S128x2048.Idx → EReal) (((cfg0.win 7).blk t).view.emb y) = (V m c main_v8 : S128x2048.Idx → EReal) y
  refine congrArg (V m c main_v8 : S128x2048.Idx → EReal) (funext fun a => Fin.ext ?_)
  match a with
  | ⟨0, _⟩ => show win0_7.index t (0 : Fin 2) * 128 + 1 * (y 0).val = (y 0).val; omega
  | ⟨1, _⟩ => show win0_7.index t (1 : Fin 2) * 2048 + 1 * (y 1).val = (y 1).val; omega

theorem idx_8 : ∀ t : Fin cfg0.N, win0_8.index t (0 : Fin 1) = 0 :=
  (by decide +kernel : ∀ t : Fin grid0.N, _)

theorem blk_8 (c : Dev nD) (t : Fin cfg0.N) : (iblk m c 8 t : S2048.Idx → EReal) = V m c main_arg8 := by
  have e0 := idx_8 t
  funext y
  show (V m c main_arg8 : S2048.Idx → EReal) (((cfg0.win 8).blk t).view.emb y) = (V m c main_arg8 : S2048.Idx → EReal) y
  refine congrArg (V m c main_arg8 : S2048.Idx → EReal) (funext fun a => Fin.ext ?_)
  match a with
  | ⟨0, _⟩ => show win0_8.index t (0 : Fin 1) * 2048 + 1 * (y 0).val = (y 0).val; omega

theorem idx_9 : ∀ t : Fin cfg0.N, win0_9.index t (0 : Fin 2) = 0 ∧ win0_9.index t (1 : Fin 2) = 0 :=
  (by decide +kernel : ∀ t : Fin grid0.N, _)

theorem blk_9 (c : Dev nD) (t : Fin cfg0.N) : (iblk m c 9 t : S2048x2048.Idx → EReal) = V m c main_v2 := by
  obtain ⟨e0, e1⟩ := idx_9 t
  funext y
  show (V m c main_v2 : S2048x2048.Idx → EReal) (((cfg0.win 9).blk t).view.emb y) = (V m c main_v2 : S2048x2048.Idx → EReal) y
  refine congrArg (V m c main_v2 : S2048x2048.Idx → EReal) (funext fun a => Fin.ext ?_)
  match a with
  | ⟨0, _⟩ => show win0_9.index t (0 : Fin 2) * 2048 + 1 * (y 0).val = (y 0).val; omega
  | ⟨1, _⟩ => show win0_9.index t (1 : Fin 2) * 2048 + 1 * (y 1).val = (y 1).val; omega

theorem idx_10 : ∀ t : Fin cfg0.N, win0_10.index t (0 : Fin 1) = 0 :=
  (by decide +kernel : ∀ t : Fin grid0.N, _)

theorem blk_10 (c : Dev nD) (t : Fin cfg0.N) : (iblk m c 10 t : S2048.Idx → EReal) = V m c main_arg10 := by
  have e0 := idx_10 t
  funext y
  show (V m c main_arg10 : S2048.Idx → EReal) (((cfg0.win 10).blk t).view.emb y) = (V m c main_arg10 : S2048.Idx → EReal) y
  refine congrArg (V m c main_arg10 : S2048.Idx → EReal) (funext fun a => Fin.ext ?_)
  match a with
  | ⟨0, _⟩ => show win0_10.index t (0 : Fin 1) * 2048 + 1 * (y 0).val = (y 0).val; omega

theorem idx_11 : ∀ t : Fin cfg0.N, win0_11.index t (0 : Fin 2) = 0 ∧ win0_11.index t (1 : Fin 2) = 0 :=
  (by decide +kernel : ∀ t : Fin grid0.N, _)

theorem blk_11 (c : Dev nD) (t : Fin cfg0.N) : (iblk m c 11 t : S2048x1024.Idx → EReal) = V m c main_v3 := by
  obtain ⟨e0, e1⟩ := idx_11 t
  funext y
  show (V m c main_v3 : S2048x1024.Idx → EReal) (((cfg0.win 11).blk t).view.emb y) = (V m c main_v3 : S2048x1024.Idx → EReal) y
  refine congrArg (V m c main_v3 : S2048x1024.Idx → EReal) (funext fun a => Fin.ext ?_)
  match a with
  | ⟨0, _⟩ => show win0_11.index t (0 : Fin 2) * 2048 + 1 * (y 0).val = (y 0).val; omega
  | ⟨1, _⟩ => show win0_11.index t (1 : Fin 2) * 1024 + 1 * (y 1).val = (y 1).val; omega

theorem idx_12 : ∀ t : Fin cfg0.N, win0_12.index t (0 : Fin 1) = 0 :=
  (by decide +kernel : ∀ t : Fin grid0.N, _)

theorem blk_12 (c : Dev nD) (t : Fin cfg0.N) : (iblk m c 12 t : S1024.Idx → EReal) = V m c main_arg12 := by
  have e0 := idx_12 t
  funext y
  show (V m c main_arg12 : S1024.Idx → EReal) (((cfg0.win 12).blk t).view.emb y) = (V m c main_arg12 : S1024.Idx → EReal) y
  refine congrArg (V m c main_arg12 : S1024.Idx → EReal) (funext fun a => Fin.ext ?_)
  match a with
  | ⟨0, _⟩ => show win0_12.index t (0 : Fin 1) * 1024 + 1 * (y 0).val = (y 0).val; omega

/-! ## The input's window -/

theorem idx_0 : ∀ t : Fin cfg0.N, win0_0.index t (0 : Fin 2) = t.val ∧ win0_0.index t (1 : Fin 2) = 0 :=
  (by decide +kernel : ∀ t : Fin grid0.N, _)

/-- Row p of the input's block at point t is row 256 t + p of the input. -/
theorem blk_0 (c : Dev nD) (t : Fin cfg0.N) (p : Fin 256) (hp : 256 * t.val + p.val < 8192) :
    rowOf (iblk m c 0 t : S256x1024.Idx → EReal) p
      = rowOf (V m c main_arg0 : S8192x1024.Idx → EReal) (⟨256 * t.val + p.val, hp⟩ : Fin 8192) := by
  obtain ⟨e0, e1⟩ := idx_0 t
  funext k
  show (V m c main_arg0 : S8192x1024.Idx → EReal) (((cfg0.win 0).blk t).view.emb (ix2 p k))
    = (V m c main_arg0 : S8192x1024.Idx → EReal) (ix2 (⟨256 * t.val + p.val, hp⟩ : Fin 8192) k)
  refine congrArg (V m c main_arg0 : S8192x1024.Idx → EReal) (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-! ## The two output windows -/

theorem idx_13 : ∀ t : Fin cfg0.N, win0_13.index t (0 : Fin 2) = t.val ∧ win0_13.index t (1 : Fin 2) = 0 :=
  (by decide +kernel : ∀ t : Fin grid0.N, _)

theorem idx_14 : ∀ t : Fin cfg0.N, win0_14.index t (0 : Fin 2) = t.val ∧ win0_14.index t (1 : Fin 2) = 0 :=
  (by decide +kernel : ∀ t : Fin grid0.N, _)

/-- Entry (p, q) of the bottleneck's block at point t lies at (256 t + p, q) of its array. -/
theorem emb_13 (t : Fin cfg0.N) (p : Fin 256) (q : Fin 128) (hp : 256 * t.val + p.val < 8192) :
    ((cfg0.win 13).blk t).view.emb (ix2 p q) = (ix2 (⟨256 * t.val + p.val, hp⟩ : Fin 8192) q : S8192x128.Idx) := by
  obtain ⟨e0, e1⟩ := idx_13 t
  funext a
  apply Fin.ext
  match a with
  | ⟨0, _⟩ => show win0_13.index t (0 : Fin 2) * 256 + 1 * p.val = 256 * t.val + p.val; omega
  | ⟨1, _⟩ => show win0_13.index t (1 : Fin 2) * 128 + 1 * q.val = q.val; omega

/-- Entry (p, q) of the state's block at point t lies at (256 t + p, q) of its array. -/
theorem emb_14 (t : Fin cfg0.N) (p : Fin 256) (q : Fin 1024) (hp : 256 * t.val + p.val < 8192) :
    ((cfg0.win 14).blk t).view.emb (ix2 p q) = (ix2 (⟨256 * t.val + p.val, hp⟩ : Fin 8192) q : S8192x1024.Idx) := by
  obtain ⟨e0, e1⟩ := idx_14 t
  funext a
  apply Fin.ext
  match a with
  | ⟨0, _⟩ => show win0_14.index t (0 : Fin 2) * 256 + 1 * p.val = 256 * t.val + p.val; omega
  | ⟨1, _⟩ => show win0_14.index t (1 : Fin 2) * 1024 + 1 * q.val = q.val; omega

/-- An index of the bottleneck's array is in point t's block iff each coordinate is in the block's range. -/
theorem mem_blk13 (t : Fin cfg0.N) (i : S8192x128.Idx) :
    i ∈ ((cfg0.win 13).blk t).view.set ↔ ∀ a : Fin 2, win0_13.index t a * S256x128.size a ≤ (i a).val
      ∧ (i a).val < win0_13.index t a * S256x128.size a + S256x128.size a := by
  show i ∈ ((View.whole main_v9_0).slice (win0_13.rect t)).set ↔ _
  rw [View.set_slice_whole, Rect.mem_set_unit]
  exact Iff.rfl

theorem mem_blk14 (t : Fin cfg0.N) (i : S8192x1024.Idx) :
    i ∈ ((cfg0.win 14).blk t).view.set ↔ ∀ a : Fin 2, win0_14.index t a * S256x1024.size a ≤ (i a).val
      ∧ (i a).val < win0_14.index t a * S256x1024.size a + S256x1024.size a := by
  show i ∈ ((View.whole main_v9_1).slice (win0_14.rect t)).set ↔ _
  rw [View.set_slice_whole, Rect.mem_set_unit]
  exact Iff.rfl

/-- Every row of the bottleneck's array is in the block of the point its row number divided by 256 names. -/
theorem cover13 (i : S8192x128.Idx) :
    ∃ t : Fin cfg0.N, (cfg0.win 13).flush t = true ∧ i ∈ ((cfg0.win 13).blk t).view.set := by
  have hi0 : (i 0).val < 8192 := (i 0).isLt
  have hi1 : (i 1).val < 128 := (i 1).isLt
  have hN : cfg0.N = 32 := N_0
  refine ⟨⟨(i 0).val / 256, by rw [hN]; omega⟩, flush0_13 _, ?_⟩
  rw [mem_blk13]
  obtain ⟨e0, e1⟩ := idx_13 ⟨(i 0).val / 256, by rw [hN]; omega⟩
  intro a
  match a with
  | ⟨0, _⟩ =>
    show win0_13.index ⟨(i 0).val / 256, _⟩ (0 : Fin 2) * 256 ≤ (i 0).val
      ∧ (i 0).val < win0_13.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win0_13.index ⟨(i 0).val / 256, _⟩ (1 : Fin 2) * 128 ≤ (i 1).val
      ∧ (i 1).val < win0_13.index ⟨(i 0).val / 256, _⟩ (1 : Fin 2) * 128 + 128
    rw [e1]
    omega

/-- The same of the state's array. -/
theorem cover14 (i : S8192x1024.Idx) :
    ∃ t : Fin cfg0.N, (cfg0.win 14).flush t = true ∧ i ∈ ((cfg0.win 14).blk t).view.set := by
  have hi0 : (i 0).val < 8192 := (i 0).isLt
  have hi1 : (i 1).val < 1024 := (i 1).isLt
  have hN : cfg0.N = 32 := N_0
  refine ⟨⟨(i 0).val / 256, by rw [hN]; omega⟩, flush0_14 _, ?_⟩
  rw [mem_blk14]
  obtain ⟨e0, e1⟩ := idx_14 ⟨(i 0).val / 256, by rw [hN]; omega⟩
  intro a
  match a with
  | ⟨0, _⟩ =>
    show win0_14.index ⟨(i 0).val / 256, _⟩ (0 : Fin 2) * 256 ≤ (i 0).val
      ∧ (i 0).val < win0_14.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win0_14.index ⟨(i 0).val / 256, _⟩ (1 : Fin 2) * 1024 ≤ (i 1).val
      ∧ (i 1).val < win0_14.index ⟨(i 0).val / 256, _⟩ (1 : Fin 2) * 1024 + 1024
    rw [e1]
    omega

end Cert.KernelIdeal.Reads

end
-- ==== Proof.Whole.lean ====
/-
  The two results of the kernel's program as the autoencoder on every row of the input.

  At grid point t the body turns rows 256 t … 256 t + 255 of the input into the same rows of the widened bottleneck and of
  the state, each row by the network on that row alone; the 32 blocks tile the 8192 rows, so after the last point the
  bottleneck's array holds the widened encoder of every row and the state's array the decoder of it. The host then
  keeps the first 64 columns of the bottleneck. With the zero padding undone (the widened bottleneck's first 64 entries
  are the encoder's; the zero rows of the decoder's first matrix cancel the rest), the first result is the encoder of
  every row and the second the decoder of that.
-/
import proofs.«422688_j59803124629848_3_alg».proof.Proof.Block
import proofs.«422688_j59803124629848_3_alg».proof.Proof.Entry
import proofs.«422688_j59803124629848_3_alg».proof.Proof.Reads
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Rows Cert.Net

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## What the two arrays end holding, over the arrays the region finds -/

/-- The widened bottleneck of every row, from the arrays the region finds. -/
def bottleneckFound (c : Dev nD) : S8192x128.Idx → EReal :=
  ofRows fun r => encRow (rowOf (V m c main_v0 : S1024x2048.Idx → EReal)) (vecOf (V m c main_arg2 : S2048.Idx → EReal))
      (rowOf (V m c main_v1 : S2048x2048.Idx → EReal)) (vecOf (V m c main_arg4 : S2048.Idx → EReal))
      (rowOf (V m c main_v7 : S2048x128.Idx → EReal)) (vecOf (V m c main_v5 : S128.Idx → EReal))
      (rowOf (V m c main_arg0 : S8192x1024.Idx → EReal) r)

/-- The state of every row, from the arrays the region finds. -/
def stateFound (c : Dev nD) : S8192x1024.Idx → EReal :=
  ofRows fun r => decRow (rowOf (V m c main_v8 : S128x2048.Idx → EReal)) (vecOf (V m c main_arg8 : S2048.Idx → EReal))
      (rowOf (V m c main_v2 : S2048x2048.Idx → EReal)) (vecOf (V m c main_arg10 : S2048.Idx → EReal))
      (rowOf (V m c main_v3 : S2048x1024.Idx → EReal)) (vecOf (V m c main_arg12 : S1024.Idx → EReal))
      (encRow (rowOf (V m c main_v0 : S1024x2048.Idx → EReal)) (vecOf (V m c main_arg2 : S2048.Idx → EReal))
      (rowOf (V m c main_v1 : S2048x2048.Idx → EReal)) (vecOf (V m c main_arg4 : S2048.Idx → EReal))
      (rowOf (V m c main_v7 : S2048x128.Idx → EReal)) (vecOf (V m c main_v5 : S128.Idx → EReal))
      (rowOf (V m c main_arg0 : S8192x1024.Idx → EReal) r))

/-- WHAT POINT t WRITES BACK to the bottleneck's array is block t of the widened bottleneck of every row. -/
theorem flushed_bottleneck (c : Dev nD) (t : Fin cfg0.N) :
    (dats m 0 c).flushed 13 t = ((cfg0.win 13).blk t).view.read (Elt Ideal) (bottleneckFound m c) := by
  show (cfg0.win 13).cut (grid0.coords t) ((dats m 0 c).after 13 t) = _
  rw [after0_13]
  unfold out0_13
  rw [View.canon_unit_zero hz2]
  simp only [View.ld_unit_zero (S := S256x1024) hz2, View.ld_unit_zero (S := S1024x2048) hz2,
    View.ld_unit_zero (S := S2048) hz1, View.ld_unit_zero (S := S2048x2048) hz2,
    View.ld_unit_zero (S := S2048x128) hz2, View.ld_unit_zero (S := S128) hz1]
  rw [Block.bottleneck_rows (iblk m c 0 t) (iblk m c 1 t) (iblk m c 2 t) (iblk m c 3 t) (iblk m c 4 t) (iblk m c 5 t)
    (iblk m c 6 t), Reads.blk_1 m c t, Reads.blk_2 m c t, Reads.blk_3 m c t, Reads.blk_4 m c t, Reads.blk_5 m c t,
    Reads.blk_6 m c t]
  refine funext fun (y : S256x128.Idx) => ?_
  obtain ⟨p, q, rfl⟩ : ∃ (p : Fin 256) (q : Fin 128), y = ix2 p q := ⟨y 0, y 1, eq_ix2 y⟩
  have hp : 256 * t.val + p.val < 8192 := by have := Reads.point_lt t; have := p.isLt; omega
  show encRow (rowOf (V m c main_v0 : S1024x2048.Idx → EReal)) (vecOf (V m c main_arg2 : S2048.Idx → EReal))
      (rowOf (V m c main_v1 : S2048x2048.Idx → EReal)) (vecOf (V m c main_arg4 : S2048.Idx → EReal))
      (rowOf (V m c main_v7 : S2048x128.Idx → EReal)) (vecOf (V m c main_v5 : S128.Idx → EReal))
      (rowOf (iblk m c 0 t : S256x1024.Idx → EReal) p) q
    = bottleneckFound m c (((cfg0.win 13).blk t).view.emb (ix2 p q))
  rw [Reads.emb_13 t p q hp, Reads.blk_0 m c t p hp]
  rfl

/-- WHAT POINT t WRITES BACK to the state's array is block t of the state of every row. -/
theorem flushed_state (c : Dev nD) (t : Fin cfg0.N) :
    (dats m 0 c).flushed 14 t = ((cfg0.win 14).blk t).view.read (Elt Ideal) (stateFound m c) := by
  show (cfg0.win 14).cut (grid0.coords t) ((dats m 0 c).after 14 t) = _
  rw [after0_14]
  unfold out0_14
  rw [View.canon_unit_zero hz2]
  simp only [View.ld_unit_zero (S := S256x1024) hz2, View.ld_unit_zero (S := S1024x2048) hz2,
    View.ld_unit_zero (S := S2048) hz1, View.ld_unit_zero (S := S2048x2048) hz2,
    View.ld_unit_zero (S := S2048x128) hz2, View.ld_unit_zero (S := S128) hz1,
    View.ld_unit_zero (S := S128x2048) hz2, View.ld_unit_zero (S := S2048x1024) hz2, View.ld_unit_zero (S := S1024) hz1]
  rw [Block.state_rows (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t),
    Reads.blk_1 m c t, Reads.blk_2 m c t, Reads.blk_3 m c t, Reads.blk_4 m c t, Reads.blk_5 m c t,
    Reads.blk_6 m c t, Reads.blk_7 m c t, Reads.blk_8 m c t, Reads.blk_9 m c t, Reads.blk_10 m c t,
    Reads.blk_11 m c t, Reads.blk_12 m c t]
  refine funext fun (y : S256x1024.Idx) => ?_
  obtain ⟨p, q, rfl⟩ : ∃ (p : Fin 256) (q : Fin 1024), y = ix2 p q := ⟨y 0, y 1, eq_ix2 y⟩
  have hp : 256 * t.val + p.val < 8192 := by have := Reads.point_lt t; have := p.isLt; omega
  show decRow (rowOf (V m c main_v8 : S128x2048.Idx → EReal)) (vecOf (V m c main_arg8 : S2048.Idx → EReal))
      (rowOf (V m c main_v2 : S2048x2048.Idx → EReal)) (vecOf (V m c main_arg10 : S2048.Idx → EReal))
      (rowOf (V m c main_v3 : S2048x1024.Idx → EReal)) (vecOf (V m c main_arg12 : S1024.Idx → EReal))
      (encRow (rowOf (V m c main_v0 : S1024x2048.Idx → EReal)) (vecOf (V m c main_arg2 : S2048.Idx → EReal))
      (rowOf (V m c main_v1 : S2048x2048.Idx → EReal)) (vecOf (V m c main_arg4 : S2048.Idx → EReal))
      (rowOf (V m c main_v7 : S2048x128.Idx → EReal)) (vecOf (V m c main_v5 : S128.Idx → EReal))
      (rowOf (iblk m c 0 t : S256x1024.Idx → EReal) p)) q
    = stateFound m c (((cfg0.win 14).blk t).view.emb (ix2 p q))
  rw [Reads.emb_14 t p q hp, Reads.blk_0 m c t p hp]
  rfl

/-- The bottleneck's array after the last point. -/
theorem final_bottleneck (c : Dev nD) : (dats m 0 c).arrAt 13 cfg0.N = bottleneckFound m c :=
  (dats m 0 c).arrAt_eq_of_cover 13 (bottleneckFound m c) (fun t _ => flushed_bottleneck m c t) Reads.cover13

/-- The state's array after the last point. -/
theorem final_state (c : Dev nD) : (dats m 0 c).arrAt 14 cfg0.N = stateFound m c :=
  (dats m 0 c).arrAt_eq_of_cover 14 (stateFound m c) (fun t _ => flushed_state m c t) Reads.cover14

/-! ## The padding undone -/

/-- The encoder of every row of the input: the first result. -/
def control (c : Dev nD) : S8192x64.Idx → EReal :=
  ofRows fun r => encRow (rowOf (m ((c : Thread nD τ).loc main_arg1) : S1024x2048.Idx → EReal)) (vecOf (m ((c : Thread nD τ).loc main_arg2) : S2048.Idx → EReal))
      (rowOf (m ((c : Thread nD τ).loc main_arg3) : S2048x2048.Idx → EReal)) (vecOf (m ((c : Thread nD τ).loc main_arg4) : S2048.Idx → EReal))
      (rowOf (m ((c : Thread nD τ).loc main_arg5) : S2048x64.Idx → EReal)) (vecOf (m ((c : Thread nD τ).loc main_arg6) : S64.Idx → EReal))
      (rowOf (m ((c : Thread nD τ).loc main_arg0) : S8192x1024.Idx → EReal) r)

/-- The decoder of the encoder of every row of the input: the second result. -/
def state (c : Dev nD) : S8192x1024.Idx → EReal :=
  ofRows fun r => decRow (rowOf (m ((c : Thread nD τ).loc main_arg7) : S64x2048.Idx → EReal)) (vecOf (m ((c : Thread nD τ).loc main_arg8) : S2048.Idx → EReal))
      (rowOf (m ((c : Thread nD τ).loc main_arg9) : S2048x2048.Idx → EReal)) (vecOf (m ((c : Thread nD τ).loc main_arg10) : S2048.Idx → EReal))
      (rowOf (m ((c : Thread nD τ).loc main_arg11) : S2048x1024.Idx → EReal)) (vecOf (m ((c : Thread nD τ).loc main_arg12) : S1024.Idx → EReal))
      (encRow (rowOf (m ((c : Thread nD τ).loc main_arg1) : S1024x2048.Idx → EReal)) (vecOf (m ((c : Thread nD τ).loc main_arg2) : S2048.Idx → EReal))
      (rowOf (m ((c : Thread nD τ).loc main_arg3) : S2048x2048.Idx → EReal)) (vecOf (m ((c : Thread nD τ).loc main_arg4) : S2048.Idx → EReal))
      (rowOf (m ((c : Thread nD τ).loc main_arg5) : S2048x64.Idx → EReal)) (vecOf (m ((c : Thread nD τ).loc main_arg6) : S64.Idx → EReal))
      (rowOf (m ((c : Thread nD τ).loc main_arg0) : S8192x1024.Idx → EReal) r))

/-- The widened bottleneck cut to its first 64 columns is the encoder of every row. -/
theorem slice_bottleneck (c : Dev nD) (h : S8192x128.Slices ![0, 0] S8192x64) :
    extractStridedSlice S8192x64 ![0, 0] (bottleneckFound m c) h = control m c := by
  funext i
  obtain ⟨r, j, rfl⟩ : ∃ (r : Fin 8192) (j : Fin 64), i = ix2 r j := ⟨i 0, i 1, eq_ix2 i⟩
  show rowOf (extractStridedSlice S8192x64 ![0, 0] (bottleneckFound m c) h) r j = _
  rw [Cert.Pads.rowOf_slice_left (R := 8192) (N := 64) 64 (bottleneckFound m c) h r j]
  unfold bottleneckFound control
  rw [rowOf_ofRows, Entry.found_We1, Entry.found_We2, Entry.found_We3, Entry.found_be3, V_main_arg0, V_main_arg2,
    V_main_arg4, encRow_pad]
  rfl

/-- The state found is the decoder of the encoder of every row: the zero rows cancel the widened bottleneck's tail. -/
theorem state_found (c : Dev nD) : stateFound m c = state m c := by
  unfold stateFound state
  rw [Entry.found_We1, Entry.found_We2, Entry.found_We3, Entry.found_be3, Entry.found_Wd1, Entry.found_Wd2,
    Entry.found_Wd3, V_main_arg0, V_main_arg2, V_main_arg4, V_main_arg8, V_main_arg10, V_main_arg12]
  refine congrArg ofRows (funext fun r => ?_)
  exact decRow_pad 64 _ _ _ _ _ _ _ _ _ _ _ _ _

/-! ## The run, read -/

/-- The host's cut of the bottleneck after the region. -/
theorem tail_control (c : Dev nD) :
    Pipeline.afterTail₀ cfgs (dats m) 0 (V0 m) [hostOps1] c main_v10 = control m c := by
  unfold Pipeline.afterTail₀
  show StableHlo.after hostOps1 _ (Proc.devRef .tc main_v10) = _
  after_results
  rw [(Pipeline.withArrays_arr spec0 launch0.win.arr_inj c _ _ 13).trans (final_bottleneck m c)]
  exact slice_bottleneck m c _

/-- Every weakly fair execution of the kernel's program ends with the first result at the encoder of every row, the
    second at the decoder of that, and the arguments as launched. -/
theorem run : θ_run defs (onTc (τ := τ) (main (F := Ideal))) ⟨m, fun _ => 0, ρ⟩ fun r => ∀ c : Dev nD,
      r.2.mem ((c.tc : Thread nD τ).loc main_v10) = control m c
      ∧ r.2.mem ((c.tc : Thread nD τ).loc main_v9_1) = state m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨
      ((h c).2 main_v10 (Pipeline.mem_restRefs_of main_v10 (by decide) (by decide))).trans (tail_control m c),
      ((h c).1 14).trans ((final_state m c).trans (state_found m c)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c)))⟩)
    (run_main m ρ)

end Cert.KernelIdeal.Whole

end
-- ==== Proof.RefWhole.lean ====
/-
  The reference, evaluated on all 8192 rows at once, as the autoencoder on each row.

  The reference's first result is the logistic function — spelt as one over one plus the exponential of the negation —
  of three dense layers with rectifiers between them; its second is three more dense layers on that result. Row r of
  each depends on row r of the input alone: the first result's rows are the encoder of the input's rows, the second's
  the decoder of those.
-/
import proofs.«422688_j59803124629848_3_alg».proof.Proof.Gen.ReferenceIdeal.Run
import proofs.«422688_j59803124629848_3_alg».proof.Proof.Net

noncomputable section

namespace Cert.ReferenceIdeal.Whole

open Cert.ReferenceIdeal Cert.ReferenceIdeal.Gen Idealize.ShloMosaic Cert.Rows Cert.Net

variable (a0 : FVec Ideal S8192x1024 .f32) (a1 : FVec Ideal S1024x2048 .f32) (a2 : FVec Ideal S2048 .f32)
  (a3 : FVec Ideal S2048x2048 .f32) (a4 : FVec Ideal S2048 .f32) (a5 : FVec Ideal S2048x64 .f32) (a6 : FVec Ideal S64 .f32)
  (a7 : FVec Ideal S64x2048 .f32) (a8 : FVec Ideal S2048 .f32) (a9 : FVec Ideal S2048x2048 .f32) (a10 : FVec Ideal S2048 .f32)
  (a11 : FVec Ideal S2048x1024 .f32) (a12 : FVec Ideal S1024 .f32)

/-- THE REFERENCE'S BOTTLENECK: row r is the encoder of row r of the input. -/
theorem control_rows :
    (Host.divf (broadcastInDim S8192x64 ![] bcast_S_S8192x64 (constant S_ .f32 0x3F800000#32)) (addf (broadcastInDim S8192x64 ![] bcast_S_S8192x64 (constant S_ .f32 0x3F800000#32)) (Host.exp (Host.negf (addf (Host.dotGeneral dot_S8192x2048_S2048x64_S8192x64_1_0_0_1_n_n none (maximumf (addf (Host.dotGeneral dot_S8192x2048_S2048x2048_S8192x2048_1_0_0_1_n_n none (maximumf (addf (Host.dotGeneral dot_S8192x1024_S1024x2048_S8192x2048_1_0_0_1_n_n none a0 a1) (broadcastInDim S8192x2048 ![0, 1] bcast_S1x2048_S8192x2048_0_1 (broadcastInDim S1x2048 ![1] bcast_S2048_S1x2048_1 a2))) (broadcastInDim S8192x2048 ![] bcast_S_S8192x2048 (constant S_ .f32 0x00000000#32))) a3) (broadcastInDim S8192x2048 ![0, 1] bcast_S1x2048_S8192x2048_0_1 (broadcastInDim S1x2048 ![1] bcast_S2048_S1x2048_1 a4))) (broadcastInDim S8192x2048 ![] bcast_S_S8192x2048 (constant S_ .f32 0x00000000#32))) a5) (broadcastInDim S8192x64 ![0, 1] bcast_S1x64_S8192x64_0_1 (broadcastInDim S1x64 ![1] bcast_S64_S1x64_1 a6)))))) : FVec Ideal S8192x64 .f32)
      = ofRows (fun r => encRow (rowOf a1) (vecOf a2) (rowOf a3) (vecOf a4) (rowOf a5) (vecOf a6) (rowOf a0 r)) := by
  rw [dot_bias_rows dot_S8192x1024_S1024x2048_S8192x2048_1_0_0_1_n_n rfl rfl rfl rfl rfl rfl, host_relu_rows,
    dot_bias_rows dot_S8192x2048_S2048x2048_S8192x2048_1_0_0_1_n_n rfl rfl rfl rfl rfl rfl, host_relu_rows,
    dot_bias_rows dot_S8192x2048_S2048x64_S8192x64_1_0_0_1_n_n rfl rfl rfl rfl rfl rfl, host_logistic_rows]
  simp only [rowOf_ofRows]
  rfl

/-- THE REFERENCE'S STATE: row r is the decoder of the encoder of row r of the input. -/
theorem state_rows :
    (addf (Host.dotGeneral dot_S8192x2048_S2048x1024_S8192x1024_1_0_0_1_n_n none (maximumf (addf (Host.dotGeneral dot_S8192x2048_S2048x2048_S8192x2048_1_0_0_1_n_n none (maximumf (addf (Host.dotGeneral dot_S8192x64_S64x2048_S8192x2048_1_0_0_1_n_n none (Host.divf (broadcastInDim S8192x64 ![] bcast_S_S8192x64 (constant S_ .f32 0x3F800000#32)) (addf (broadcastInDim S8192x64 ![] bcast_S_S8192x64 (constant S_ .f32 0x3F800000#32)) (Host.exp (Host.negf (addf (Host.dotGeneral dot_S8192x2048_S2048x64_S8192x64_1_0_0_1_n_n none (maximumf (addf (Host.dotGeneral dot_S8192x2048_S2048x2048_S8192x2048_1_0_0_1_n_n none (maximumf (addf (Host.dotGeneral dot_S8192x1024_S1024x2048_S8192x2048_1_0_0_1_n_n none a0 a1) (broadcastInDim S8192x2048 ![0, 1] bcast_S1x2048_S8192x2048_0_1 (broadcastInDim S1x2048 ![1] bcast_S2048_S1x2048_1 a2))) (broadcastInDim S8192x2048 ![] bcast_S_S8192x2048 (constant S_ .f32 0x00000000#32))) a3) (broadcastInDim S8192x2048 ![0, 1] bcast_S1x2048_S8192x2048_0_1 (broadcastInDim S1x2048 ![1] bcast_S2048_S1x2048_1 a4))) (broadcastInDim S8192x2048 ![] bcast_S_S8192x2048 (constant S_ .f32 0x00000000#32))) a5) (broadcastInDim S8192x64 ![0, 1] bcast_S1x64_S8192x64_0_1 (broadcastInDim S1x64 ![1] bcast_S64_S1x64_1 a6))))))) a7) (broadcastInDim S8192x2048 ![0, 1] bcast_S1x2048_S8192x2048_0_1 (broadcastInDim S1x2048 ![1] bcast_S2048_S1x2048_1 a8))) (broadcastInDim S8192x2048 ![] bcast_S_S8192x2048 (constant S_ .f32 0x00000000#32))) a9) (broadcastInDim S8192x2048 ![0, 1] bcast_S1x2048_S8192x2048_0_1 (broadcastInDim S1x2048 ![1] bcast_S2048_S1x2048_1 a10))) (broadcastInDim S8192x2048 ![] bcast_S_S8192x2048 (constant S_ .f32 0x00000000#32))) a11) (broadcastInDim S8192x1024 ![0, 1] bcast_S1x1024_S8192x1024_0_1 (broadcastInDim S1x1024 ![1] bcast_S1024_S1x1024_1 a12)) : FVec Ideal S8192x1024 .f32)
      = ofRows (fun r => decRow (rowOf a7) (vecOf a8) (rowOf a9) (vecOf a10) (rowOf a11) (vecOf a12)
          (encRow (rowOf a1) (vecOf a2) (rowOf a3) (vecOf a4) (rowOf a5) (vecOf a6) (rowOf a0 r))) := by
  rw [control_rows,
    dot_bias_rows dot_S8192x64_S64x2048_S8192x2048_1_0_0_1_n_n rfl rfl rfl rfl rfl rfl, host_relu_rows,
    dot_bias_rows dot_S8192x2048_S2048x2048_S8192x2048_1_0_0_1_n_n rfl rfl rfl rfl rfl rfl, host_relu_rows,
    dot_bias_rows dot_S8192x2048_S2048x1024_S8192x1024_1_0_0_1_n_n rfl rfl rfl rfl rfl rfl]
  simp only [rowOf_ofRows]
  rfl

end Cert.ReferenceIdeal.Whole

end
-- ==== Proof.lean ====
/-
  An autoencoder — three dense layers with rectifiers and the logistic function down to a bottleneck of 64 entries, three
  dense layers with rectifiers back up — evaluated by one kernel on blocks of 256 rows with the bottleneck widened to 128
  entries by zeros, against the same network evaluated by the host on all 8192 rows at once.

  On the extended reals both programs compute, for every row x of the input, the encoder of x (the first result) and the
  decoder of the encoder of x (the second). Each layer acts on a row alone, so cutting the rows into blocks changes
  nothing; a block product into a zero accumulator is the host's product; a change of float format is the identity; the
  kernel's logistic function is the host's one over one plus the exponential of the negation; and the zero columns, zero
  bias entries and zero rows that widen the bottleneck contribute c · 0 = 0 to the decoder's first sums, which holds for
  every extended real c. No law used needs a finite operand, so the precondition is never opened.

  The three frames are the generated ones (the reference's is its run with the results dropped); the idealization
  rewrote nothing, so its claim is trivial.
-/
import proofs.«422688_j59803124629848_3_alg».proof.Defs
import proofs.«422688_j59803124629848_3_alg».proof.Proof.Gen.Kernel
import proofs.«422688_j59803124629848_3_alg».proof.Proof.Gen.Kernel.Skeleton
import proofs.«422688_j59803124629848_3_alg».proof.Proof.Gen.Kernel.Launch
import proofs.«422688_j59803124629848_3_alg».proof.Proof.Gen.Kernel.Points
import proofs.«422688_j59803124629848_3_alg».proof.Proof.Gen.Kernel.Frame
import proofs.«422688_j59803124629848_3_alg».proof.Proof.Gen.KernelIdeal
import proofs.«422688_j59803124629848_3_alg».proof.Proof.Gen.KernelIdeal.Skeleton
import proofs.«422688_j59803124629848_3_alg».proof.Proof.Gen.KernelIdeal.Launch
import proofs.«422688_j59803124629848_3_alg».proof.Proof.Gen.KernelIdeal.Points
import proofs.«422688_j59803124629848_3_alg».proof.Proof.Gen.KernelIdeal.Frame
import proofs.«422688_j59803124629848_3_alg».proof.Proof.Gen.ReferenceIdeal
import proofs.«422688_j59803124629848_3_alg».proof.Proof.Gen.ReferenceIdeal.Run
import proofs.«422688_j59803124629848_3_alg».proof.Proof.Gen.Pre_finite_inputs
import proofs.«422688_j59803124629848_3_alg».proof.Proof.Whole
import proofs.«422688_j59803124629848_3_alg».proof.Proof.RefWhole
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the encoder of every row of the input as the first result and the decoder of that as the
    second: the kernel's by its blocks and the padding undone, the reference's layer by layer; the arguments agree. -/
theorem algebraic : Cert.algebraic_KernelIdeal_ReferenceIdeal := by
  intro m ρ m' ρ' _ hagree
  refine ⟨fun c => Cert.KernelIdeal.Whole.control m c, fun c => Cert.KernelIdeal.Whole.state m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12⟩ := hagree c
    rw [Cert.ReferenceIdeal.Whole.control_rows, h0, h1, h2, h3, h4, h5, h6]
    rfl
  · obtain ⟨h0, h1, h2, h3, h4, h5, h6, h7, h8, h9, h10, h11, h12⟩ := hagree c
    rw [Cert.ReferenceIdeal.Whole.state_rows, h0, h1, h2, h3, h4, h5, h6, h7, h8, h9, h10, h11, h12]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
